-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x4 : Shape := ⟨2, ![256, 4]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S256x4 1) : IVec S_ 1 :=
  let main_c_5 : IVec S_ 1 := constantI S_ 1 1#1
  let main_v17 : IVec S_ 1 := (fun x v => Host.reduce IntOp.andi x v reducesTo_S256x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x4 .f32) (main_arg5 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x4 .f32 := Host.absf main_arg4
  let main_cst_4 : FVec F S_ .f32 := constant S_ .f32 0x7F800000#32
  let main_v15 : FVec F S256x4 .f32 := broadcastInDim S256x4 ![] bcast_S_S256x4 main_cst_4
  let main_v16 : IVec S256x4 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x4 : Shape := ⟨2, ![256, 4]⟩
abbrev S4 : Shape := ⟨1, ![4]⟩
abbrev S1x800000 : Shape := ⟨2, ![1, 800000]⟩
abbrev S800000 : Shape := ⟨1, ![800000]⟩
abbrev S50000x256 : Shape := ⟨2, ![50000, 256]⟩
abbrev S2000x128 : Shape := ⟨2, ![2000, 128]⟩
abbrev S2000x256 : Shape := ⟨2, ![2000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x4 : Shape := ⟨2, ![50000, 4]⟩
abbrev S2000x4 : Shape := ⟨2, ![2000, 4]⟩
abbrev S800000x4 : Shape := ⟨2, ![800000, 4]⟩
abbrev S1x4 : Shape := ⟨2, ![1, 4]⟩

abbrev nBuf : Space → Nat
  | .hbm => 135
  | .vmem => 10
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x4, .f32⟩
  | 5 => ⟨S4, .f32⟩
  | 6 => ⟨S1x800000, .i32⟩
  | 7 => ⟨S800000, .i32⟩
  | 8 => ⟨S1x800000, .i32⟩
  | 9 => ⟨S800000, .i32⟩
  | 10 => ⟨S50000x256, .f32⟩
  | 11 => ⟨S_, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S_, .f32⟩
  | 22 => ⟨S800000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S800000x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S800000x256, .f32⟩
  | 58 => ⟨S800000x256, .f32⟩
  | 59 => ⟨S_, .f32⟩
  | 60 => ⟨S50000x256, .f32⟩
  | 61 => ⟨S800000x1, .i32⟩
  | 62 => ⟨S50000x256, .f32⟩
  | 63 => ⟨S50000, .f32⟩
  | 64 => ⟨S50000x1, .f32⟩
  | 65 => ⟨S50000x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x4, .f32⟩
  | 75 => ⟨S_, .f32⟩
  | 76 => ⟨S50000, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S_, .f32⟩
  | 86 => ⟨S800000, .f32⟩
  | 87 => ⟨S50000, .f32⟩
  | 88 => ⟨S_, .f32⟩
  | 89 => ⟨S50000, .f32⟩
  | 90 => ⟨S50000, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S800000x1, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x4, .f32⟩
  | 121 => ⟨S800000x4, .f32⟩
  | 122 => ⟨S800000x4, .f32⟩
  | 123 => ⟨S_, .f32⟩
  | 124 => ⟨S50000x4, .f32⟩
  | 125 => ⟨S800000x1, .i32⟩
  | 126 => ⟨S50000x4, .f32⟩
  | 127 => ⟨S50000, .f32⟩
  | _ => ⟨S50000x128, .f32⟩

abbrev hbmTy0_1 (i : Nat) : BufTy := match i % 128 with
  | 0 => ⟨S50000x1, .f32⟩
  | 1 => ⟨S50000x4, .f32⟩
  | 2 => ⟨S50000x4, .f32⟩
  | 3 => ⟨S50000x4, .f32⟩
  | 4 => ⟨S1x4, .f32⟩
  | 5 => ⟨S50000x4, .f32⟩
  | 6 => ⟨S50000x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x4, .f32⟩
  | .local _ .vmem, ⟨8, _⟩ => ⟨S2000x4, .f32⟩
  | .local _ .vmem, ⟨9, _⟩ => ⟨S2000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_19 : Ref sig .tc := ⟨.hbm, 112, rfl⟩
abbrev main_v83 : Ref sig .tc := ⟨.hbm, 113, rfl⟩
abbrev main_v84 : Ref sig .tc := ⟨.hbm, 114, rfl⟩
abbrev main_c_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x4_S256x4_0_0 : ∀ a, (![0, 0] : Fin 2 → Nat) a + S256x4.size a ≤ S256x4.size a
  h_S256x4 : 0 < S256x4.numel
  inb_S2000x4_S2000x4_0_0 : ∀ a, (![0, 0] : Fin 2 → Nat) a + S2000x4.size a ≤ S2000x4.size a
  h_S2000x4 : 0 < S2000x4.numel
  bcast_S800000x1_S800000x4_0_1 : S800000x1.BroadcastsInDim S800000x4 (![0, 1] : Fin 2 → Fin S800000x4.rank)
  bcast_S_S50000x4 : S_.BroadcastsInDim S50000x4 (![] : Fin 0 → Fin S50000x4.rank)
  bcast_S50000x1_S50000x4_0_1 : S50000x1.BroadcastsInDim S50000x4 (![0, 1] : Fin 2 → Fin S50000x4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  dot_S2000x128_S128x256_S2000x256_1_0_0_1_n_n_wf : DotDims.WF S2000x128 S128x256 S2000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x4_S2000x4_1_0_0_1_n_n_wf : DotDims.WF S2000x256 S256x4 S2000x4 [1] [0] [0] [1] [] []
  gather_S50000x4_S800000x1_S800000x4_1_0_n_n_0_1_14_wf : GatherDims.WF S50000x4 S800000x1 S800000x4 [1] [0] [] [0] [] 1 ![1, 4]
  scatter_S50000x4_S800000x1_S800000x4_1_0_0_1_wf : ScatterDims.WF S50000x4 S800000x1 S800000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x4.size a ≤ S256x4.size a
  hwx1_1 : ∀ i : grid1.Coords, EltTy.bits .f32 = 32 ∨ (Rect.block (s := S256x4) S256x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x4.size a ≤ S50000x4.size a
  hwx1_2 : ∀ i : grid1.Coords, EltTy.bits .f32 = 32 ∨ (Rect.block (s := S50000x4) S2000x4.size (cc1_transform_2 i) (hinb1_2 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x4_S2000x4_1_0_0_1_n_n : DotDims S2000x256 S256x4 S2000x4 where
  lhsContracting := [1]
  rhsContracting := [0]
  lhsNonContracting := [0]
  rhsNonContracting := [1]
  lhsBatch := []
  rhsBatch := []
  wf := dot_S2000x256_S256x4_S2000x4_1_0_0_1_n_n_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S2000x4.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x4 : Shape := ⟨2, ![256, 4]⟩
abbrev S4 : Shape := ⟨1, ![4]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S50000x4 : Shape := ⟨2, ![50000, 4]⟩
abbrev S800000x4 : Shape := ⟨2, ![800000, 4]⟩
abbrev S1x4 : Shape := ⟨2, ![1, 4]⟩

abbrev nBuf : Space → Nat
  | .hbm => 135
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x4, .f32⟩
  | 5 => ⟨S4, .f32⟩
  | 6 => ⟨S1x800000, .i32⟩
  | 7 => ⟨S800000, .i32⟩
  | 8 => ⟨S1x800000, .i32⟩
  | 9 => ⟨S800000, .i32⟩
  | 10 => ⟨S50000x256, .f32⟩
  | 11 => ⟨S_, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S_, .f32⟩
  | 22 => ⟨S800000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S800000x1, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S800000x256, .f32⟩
  | 58 => ⟨S800000x256, .f32⟩
  | 59 => ⟨S_, .f32⟩
  | 60 => ⟨S50000x256, .f32⟩
  | 61 => ⟨S800000x1, .i32⟩
  | 62 => ⟨S50000x256, .f32⟩
  | 63 => ⟨S50000, .f32⟩
  | 64 => ⟨S50000x1, .f32⟩
  | 65 => ⟨S50000x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S50000x256, .f32⟩
  | 73 => ⟨S50000x256, .f32⟩
  | 74 => ⟨S50000x4, .f32⟩
  | 75 => ⟨S_, .f32⟩
  | 76 => ⟨S50000, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S_, .f32⟩
  | 86 => ⟨S800000, .f32⟩
  | 87 => ⟨S50000, .f32⟩
  | 88 => ⟨S_, .f32⟩
  | 89 => ⟨S50000, .f32⟩
  | 90 => ⟨S50000, .f32⟩
  | 91 => ⟨S50000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S800000, .f32⟩
  | 111 => ⟨S800000x1, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x4, .f32⟩
  | 121 => ⟨S800000x4, .f32⟩
  | 122 => ⟨S800000x4, .f32⟩
  | 123 => ⟨S_, .f32⟩
  | 124 => ⟨S50000x4, .f32⟩
  | 125 => ⟨S800000x1, .i32⟩
  | 126 => ⟨S50000x4, .f32⟩
  | 127 => ⟨S50000, .f32⟩
  | _ => ⟨S50000x128, .f32⟩

abbrev hbmTy0_1 (i : Nat) : BufTy := match i % 128 with
  | 0 => ⟨S50000x1, .f32⟩
  | 1 => ⟨S50000x4, .f32⟩
  | 2 => ⟨S50000x4, .f32⟩
  | 3 => ⟨S50000x4, .f32⟩
  | 4 => ⟨S1x4, .f32⟩
  | 5 => ⟨S50000x4, .f32⟩
  | 6 => ⟨S50000x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_19 : Ref sig .tc := ⟨.hbm, 112, rfl⟩
abbrev main_v83 : Ref sig .tc := ⟨.hbm, 113, rfl⟩
abbrev main_v84 : Ref sig .tc := ⟨.hbm, 114, rfl⟩
abbrev main_c_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x4_0_1 : S800000x1.BroadcastsInDim S800000x4 (![0, 1] : Fin 2 → Fin S800000x4.rank)
  bcast_S_S50000x4 : S_.BroadcastsInDim S50000x4 (![] : Fin 0 → Fin S50000x4.rank)
  bcast_S50000x1_S50000x4_0_1 : S50000x1.BroadcastsInDim S50000x4 (![0, 1] : Fin 2 → Fin S50000x4.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  dot_S50000x128_S128x256_S50000x256_1_0_0_1_n_n_wf : DotDims.WF S50000x128 S128x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x4_S50000x4_1_0_0_1_n_n_wf : DotDims.WF S50000x256 S256x4 S50000x4 [1] [0] [0] [1] [] []
  gather_S50000x4_S800000x1_S800000x4_1_0_n_n_0_1_14_wf : GatherDims.WF S50000x4 S800000x1 S800000x4 [1] [0] [] [0] [] 1 ![1, 4]
  scatter_S50000x4_S800000x1_S800000x4_1_0_0_1_wf : ScatterDims.WF S50000x4 S800000x1 S800000x4 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x4_S50000x4_1_0_0_1_n_n : DotDims S50000x256 S256x4 S50000x4 where
  lhsContracting := [1]
  rhsContracting := [0]
  lhsNonContracting := [0]
  rhsNonContracting := [1]
  lhsBatch := []
  rhsBatch := []
  wf := dot_S50000x256_S256x4_S50000x4_1_0_0_1_n_n_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf

class Facts : Prop extends Facts₀ where

variable [Facts]
-- ==== Proof.Spec.lean ====
import proofs.«150774_j9929964388496_1_alg».proof.KernelIdeal
import Idealize.ShloMosaic.PureOps.Ideal
import Idealize.ShloMosaic.Lib.ValueIdx

/-!
  The graph convolution both programs compute, as functions of whole arrays.

  A layer takes node features `h` (one row per node), the edge list as two vectors of node numbers `src` and `dst`
  (one entry per edge) and a bias row `b`. With deg(v) = 1 + the number of edges whose destination is v and
  s(v) = deg(v)^(-1/2), the layer's row v is

      Σ over edges e with dst(e) = v of  s(src e) · s(dst e) · h(src e)   +   s(v)² · h(v)   +   b.

  The node numbers are read the way array indexing reads them: a negative number n stands for n + 50000. The layer with
  256 features is followed by max(·, 0); the layer with 4 features is the result. Each layer's features `h` are a plain
  matrix product, `rowDot`: entry (p, q) is the sum over k of x(p, k) · w(k, q).
-/

open scoped BigOperators

noncomputable section

namespace Cert.KernelIdeal.Spec

open Idealize.ShloMosaic Idealize.ShloMosaic.ValueIdx Cert.KernelIdeal

/-- Entry (p, q) of a plain matrix product over the extended reals: the sum over k of x(p, k) · w(k, q). -/
def rowDot {M K N : Nat} (x : FVec Ideal ⟨2, ![M, K]⟩ .f32) (w : FVec Ideal ⟨2, ![K, N]⟩ .f32) : FVec Ideal ⟨2, ![M, N]⟩ .f32 :=
  fun i => ∑ k : Fin K, x (ix2 (i 0) k) * w (ix2 k (i 1))

variable {F : FTy → Type} [FloatOps F] [Cert.KernelIdeal.Facts]
open Cert.KernelIdeal.Facts₀ Cert.KernelIdeal.Facts

/-- Row 0 of the edge list: each edge's source node. -/
def srcRow (ei : IVec S2x800000 32) : IVec S800000 32 :=
  shapeCast S800000 (extractStridedSlice S1x800000 ![0, 0] ei slices_S2x800000_S1x800000_0_0) shapeCasts_S1x800000_S800000

/-- Row 1 of the edge list: each edge's destination node. -/
def dstRow (ei : IVec S2x800000 32) : IVec S800000 32 :=
  shapeCast S800000 (extractStridedSlice S1x800000 ![1, 0] ei slices_S2x800000_S1x800000_1_0) shapeCasts_S1x800000_S800000

/-- Node numbers as an index column: a negative number n is read as n + 50000. -/
def wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- s(v) = deg(v)^(-1/2), where deg(v) is one more than the number of edges that end at v. -/
def invSqrtDeg (dst : IVec S800000 32) : FVec F S50000 .f32 :=
  Host.rsqrt (addf
    (Host.scatterAdd scatter_S50000_S800000x1_S800000_n_0_0_1
      (broadcastInDim S50000 ![] bcast_S_S50000 (constant S_ .f32 0x00000000#32))
      (wrapIdx dst)
      (broadcastInDim S800000 ![] bcast_S_S800000 (constant S_ .f32 0x3F800000#32)))
    (broadcastInDim S50000 ![] bcast_S_S50000 (constant S_ .f32 0x3F800000#32)))

/-- The weight of edge e, s(src e) · s(dst e), as a column. -/
def edgeWeight (src dst : IVec S800000 32) : FVec F S800000x1 .f32 :=
  broadcastInDim S800000x1 ![0] bcast_S800000_S800000x1_0
    (mulf (Host.gather gather_S50000_S800000x1_S800000_n_0_n_n_0_1_1 (invSqrtDeg (F := F) dst) (wrapIdx src))
      (Host.gather gather_S50000_S800000x1_S800000_n_0_n_n_0_1_1 (invSqrtDeg (F := F) dst) (wrapIdx dst)))

/-- One layer on 256 features: the weighted rows summed into their destinations, the node's own row scaled by s(v)²,
    and the bias. -/
def aggregate256 (h : FVec F S50000x256 .f32) (src dst : IVec S800000 32) (b : FVec F S256 .f32) : FVec F S50000x256 .f32 :=
  addf (addf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (mulf (broadcastInDim S800000x256 ![0, 1] bcast_S800000x1_S800000x256_0_1 (edgeWeight (F := F) src dst))
        (Host.gather gather_S50000x256_S800000x1_S800000x256_1_0_n_n_0_1_1256 h (wrapIdx src))))
    (mulf (broadcastInDim S50000x256 ![0, 1] bcast_S50000x1_S50000x256_0_1
        (broadcastInDim S50000x1 ![0] bcast_S50000_S50000x1_0 (mulf (invSqrtDeg (F := F) dst) (invSqrtDeg (F := F) dst)))) h))
    (broadcastInDim S50000x256 ![0, 1] bcast_S1x256_S50000x256_0_1 (broadcastInDim S1x256 ![1] bcast_S256_S1x256_1 b))

/-- The hidden layer: the 256-feature layer followed by max(·, 0). -/
def hidden (h : FVec F S50000x256 .f32) (src dst : IVec S800000 32) (b : FVec F S256 .f32) : FVec F S50000x256 .f32 :=
  maximumf (aggregate256 h src dst b) (broadcastInDim S50000x256 ![] bcast_S_S50000x256 (constant S_ .f32 0x00000000#32))

/-- One layer on 4 features. -/
def aggregate4 (h : FVec F S50000x4 .f32) (src dst : IVec S800000 32) (b : FVec F S4 .f32) : FVec F S50000x4 .f32 :=
  addf (addf
    (Host.scatterAdd scatter_S50000x4_S800000x1_S800000x4_1_0_0_1
      (broadcastInDim S50000x4 ![] bcast_S_S50000x4 (constant S_ .f32 0x00000000#32))
      (broadcastInDim S800000x1 ![0] bcast_S800000_S800000x1_0 dst)
      (mulf (broadcastInDim S800000x4 ![0, 1] bcast_S800000x1_S800000x4_0_1 (edgeWeight (F := F) src dst))
        (Host.gather gather_S50000x4_S800000x1_S800000x4_1_0_n_n_0_1_14 h (wrapIdx src))))
    (mulf (broadcastInDim S50000x4 ![0, 1] bcast_S50000x1_S50000x4_0_1
        (broadcastInDim S50000x1 ![0] bcast_S50000_S50000x1_0 (mulf (invSqrtDeg (F := F) dst) (invSqrtDeg (F := F) dst)))) h))
    (broadcastInDim S50000x4 ![0, 1] bcast_S1x4_S50000x4_0_1 (broadcastInDim S1x4 ![1] bcast_S4_S1x4_1 b))

/-- The whole network over the extended reals, from the argument arrays. -/
def network (x : FVec Ideal S50000x128 .f32) (ei : IVec S2x800000 32) (w1 : FVec Ideal S128x256 .f32) (b1 : FVec Ideal S256 .f32)
    (w2 : FVec Ideal S256x4 .f32) (b2 : FVec Ideal S4 .f32) : FVec Ideal S50000x4 .f32 :=
  aggregate4 (rowDot (hidden (rowDot x w1) (srcRow ei) (dstRow ei) b1) w2) (srcRow ei) (dstRow ei) b2

end Cert.KernelIdeal.Spec

end
-- ==== Proof.HostStretches.lean ====
import proofs.«150774_j9929964388496_1_alg».proof.Proof.Gen.KernelIdeal.Frame
import proofs.«150774_j9929964388496_1_alg».proof.Proof.Spec
import Idealize.ShloMosaic.Lib.StableHlo.Run

/-!
  The host stretches of @main as functions of the buffers they read.

  @main is: four operations that cut the edge list into its source row and its destination row; the first matrix product;
  a stretch that turns the product into the hidden layer (degree normalisation, gather of source rows, sum into
  destinations, self term, bias, max with zero); the second matrix product; a stretch that turns it into the result (the
  same layer on 4 features, without the max). Each stretch is read here from ANY buffer contents it is entered with: what
  it leaves in its last buffer is the layer function of the specification applied to what the entry contents hold in the
  product's buffer, in the two edge rows and in the bias; and it leaves alone the buffers a later stretch or region reads.
-/

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-! ## The first stretch: the two rows of the edge list -/

theorem cut_src (X : Valuation τ sig (Elt F)) :
    StableHlo.after hostOps0 X (Proc.devRef .tc main_v1) = Spec.srcRow (X (Proc.devRef .tc main_arg1)) := by
  dsimp only [hostOps0]
  after_results
  rfl

theorem cut_dst (X : Valuation τ sig (Elt F)) :
    StableHlo.after hostOps0 X (Proc.devRef .tc main_v3) = Spec.dstRow (X (Proc.devRef .tc main_arg1)) := by
  dsimp only [hostOps0]
  after_results
  rfl

/-- The first stretch writes none of the argument buffers. -/
theorem cut_keeps (X : Valuation τ sig (Elt F)) :
    StableHlo.after hostOps0 X (Proc.devRef .tc main_arg0) = X (Proc.devRef .tc main_arg0)
    ∧ StableHlo.after hostOps0 X (Proc.devRef .tc main_arg2) = X (Proc.devRef .tc main_arg2)
    ∧ StableHlo.after hostOps0 X (Proc.devRef .tc main_arg3) = X (Proc.devRef .tc main_arg3)
    ∧ StableHlo.after hostOps0 X (Proc.devRef .tc main_arg4) = X (Proc.devRef .tc main_arg4)
    ∧ StableHlo.after hostOps0 X (Proc.devRef .tc main_arg5) = X (Proc.devRef .tc main_arg5) := by
  dsimp only [hostOps0]
  refine ⟨?_, ?_, ?_, ?_, ?_⟩ <;> after_results

/-! ## The stretch between the two products: the hidden layer -/

set_option maxHeartbeats 16000000 in
theorem hidden_of (X : Valuation τ sig (Elt F)) :
    StableHlo.after hostOps1_1 (StableHlo.after hostOps1 X) (Proc.devRef .tc main_v53)
      = Spec.hidden (X (Proc.devRef .tc main_v4)) (X (Proc.devRef .tc main_v1)) (X (Proc.devRef .tc main_v3))
          (X (Proc.devRef .tc main_arg3)) := by
  dsimp only [hostOps1_1, hostOps1]
  after_results_simp
  rfl

set_option maxHeartbeats 16000000 in
/-- The middle stretch writes neither edge row nor the arguments the second product and the last stretch read. -/
theorem hidden_keeps (X : Valuation τ sig (Elt F)) :
    StableHlo.after hostOps1_1 (StableHlo.after hostOps1 X) (Proc.devRef .tc main_v1) = X (Proc.devRef .tc main_v1)
    ∧ StableHlo.after hostOps1_1 (StableHlo.after hostOps1 X) (Proc.devRef .tc main_v3) = X (Proc.devRef .tc main_v3)
    ∧ StableHlo.after hostOps1_1 (StableHlo.after hostOps1 X) (Proc.devRef .tc main_arg4) = X (Proc.devRef .tc main_arg4)
    ∧ StableHlo.after hostOps1_1 (StableHlo.after hostOps1 X) (Proc.devRef .tc main_arg5) = X (Proc.devRef .tc main_arg5) := by
  dsimp only [hostOps1_1, hostOps1]
  refine ⟨?_, ?_, ?_, ?_⟩ <;> after_results_simp

/-! ## The last stretch: the output layer -/

set_option maxHeartbeats 16000000 in
theorem output_of (X : Valuation τ sig (Elt F)) :
    StableHlo.after hostOps2 X (Proc.devRef .tc main_v102)
      = Spec.aggregate4 (X (Proc.devRef .tc main_v54)) (X (Proc.devRef .tc main_v1)) (X (Proc.devRef .tc main_v3))
          (X (Proc.devRef .tc main_arg5)) := by
  dsimp only [hostOps2]
  after_results_simp
  rfl

end Cert.KernelIdeal.HostValue

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Region0.lean ====
import proofs.«150774_j9929964388496_1_alg».proof.Proof.Gen.KernelIdeal.Frame
import proofs.«150774_j9929964388496_1_alg».proof.Proof.Spec
import proofs.«150774_j9929964388496_1_alg».proof.Proof.LibPlainDot
import Idealize.ShloMosaic.Lib.Pipeline.Value
import Idealize.ShloMosaic.Lib.ValueIdx
import Idealize.ShloMosaic.PureOps.Ideal.Laws

/-!
  The first matrix product of the network, from its blocks to the whole array.

  The 50000 rows of the feature array are cut into 25 blocks of 2000 rows. At grid point t the body multiplies rows
  2000·t … 2000·t + 1999 of the features (all 128 columns) by the whole 128 × 256 weight matrix and writes the
  2000 × 256 result to the same rows of the product array. Over the extended reals the rounding of the operands to
  the narrower format is the identity, so entry (p, q) of a block is the sum over k of feature(2000·t + p, k) ·
  weight(k, q): block t of the plain matrix product. The 25 row blocks tile the product array (row r lies in block
  r / 2000), so after the last point the array holds the matrix product at every entry.
-/

set_option maxRecDepth 16384

open scoped BigOperators

noncomputable section

namespace Cert.KernelIdeal.Region0

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- A whole-block access starts at offset zero on both axes. -/
theorem zeroOffsets : (![0, 0] : Fin 2 → Nat) = fun _ => 0 := funext fun a => by fin_cases a <;> rfl

/-- The grid has 25 points. -/
theorem gridPoints : cfg0.N = 25 := by decide +kernel

/-- What the body leaves in the product block at entry (p, q): row p of the feature block against column q of the
    weight block. -/
theorem blockProduct_apply (x0 : Vec Ideal S2000x128 .f32) (x1 : Vec Ideal S128x256 .f32) (p : Fin 2000) (q : Fin 256) :
    out0_2 x0 x1 (ix2 p q) = ∑ k : Fin 128, x0 (ix2 p k) * x1 (ix2 k q) := by
  unfold out0_2
  rw [View.canon_unit_zero zeroOffsets]
  simp only [View.ld_unit_zero (S := S2000x128) zeroOffsets, View.ld_unit_zero (S := S128x256) zeroOffsets]
  unfold k0_pay1
  exact (Cert.Lib.PlainDot.matmul_zero_apply dot_S2000x128_S128x256_S2000x256_1_0_0_1_n_n rfl rfl rfl rfl rfl rfl none
    _ _ p q).trans (Finset.sum_congr rfl fun k _ => rfl)

/-- The index maps over the grid: at point t the feature window and the product window sit at row block t and
    column block 0, and the weight window at block (0, 0). -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t holds rows 2000·t … 2000·t + 1999 of the feature array. -/
theorem featureBlock_apply (c : Dev nD) (t : Fin cfg0.N) (p : Fin 2000) (k : Fin 128) (r : Fin 50000)
    (hr : r.val = 2000 * t.val + p.val) :
    (iblk0 V c 0 t : Vec Ideal S2000x128 .f32) (ix2 p k) = (V c main_arg0 : S50000x128.Idx → EReal) (ix2 r k) := by
  obtain ⟨e0, e1, -⟩ := blockIndex t
  unfold iblk0
  show V c main_arg0 (((cfg0.win 0).blk t).view.emb (ix2 p k)) = V c main_arg0 (ix2 r k)
  congr 1
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight window's block at every point is the whole weight matrix. -/
theorem weightBlock_apply (c : Dev nD) (t : Fin cfg0.N) (k : Fin 128) (q : Fin 256) :
    (iblk0 V c 1 t : Vec Ideal S128x256 .f32) (ix2 k q) = (V c main_arg2 : S128x256.Idx → EReal) (ix2 k q) := by
  obtain ⟨-, -, e0, e1, -⟩ := blockIndex t
  unfold iblk0
  show V c main_arg2 (((cfg0.win 1).blk t).view.emb (ix2 k q)) = V c main_arg2 (ix2 k q)
  congr 1
  funext a
  apply Fin.ext
  match a with
  | ⟨0, _⟩ => show win0_1.index t (0 : Fin 2) * 128 + 1 * k.val = k.val; rw [e0]; omega
  | ⟨1, _⟩ => show win0_1.index t (1 : Fin 2) * 256 + 1 * q.val = q.val; rw [e1]; omega

/-- Entry (p, q) of the product window's block at point t is entry (2000·t + p, q) of the product array. -/
theorem productBlock_emb (t : Fin cfg0.N) (p : Fin 2000) (q : Fin 256) (r : Fin 50000)
    (hr : r.val = 2000 * t.val + p.val) :
    (((cfg0.win 2).blk t).view.emb (ix2 p q) : S50000x256.Idx) = ix2 r q := by
  obtain ⟨-, -, -, -, e0, e1⟩ := blockIndex t
  funext a
  apply Fin.ext
  match a with
  | ⟨0, _⟩ => show win0_2.index t (0 : Fin 2) * 2000 + 1 * p.val = r.val; rw [e0, hr]; omega
  | ⟨1, _⟩ => show win0_2.index t (1 : Fin 2) * 256 + 1 * q.val = q.val; rw [e1]; omega

/-- Entry (r, q) of the matrix product is the sum over k of x(r, k) · w(k, q). -/
theorem rowDot_apply (x : S50000x128.Idx → EReal) (w : S128x256.Idx → EReal) (r : Fin 50000) (q : Fin 256) :
    Spec.rowDot (M := 50000) (K := 128) (N := 256) x w (ix2 r q) = ∑ k : Fin 128, x (ix2 r k) * w (ix2 k q) := rfl

/-- What point t writes back is block t of the matrix product of the two arrays the region was entered with. -/
theorem flushed_eq (c : Dev nD) (t : Fin cfg0.N) :
    (dat0 (F := Ideal) V c).flushed 2 t
      = ((cfg0.win 2).blk t).view.read (Elt Ideal)
          (Spec.rowDot (M := 50000) (K := 128) (N := 256) (V c main_arg0) (V c main_arg2)) := by
  show (cfg0.win 2).cut (grid0.coords t) ((dat0 V c).after 2 t) = _
  rw [after0_2]
  funext j
  obtain ⟨p, q, rfl⟩ : ∃ (p : Fin 2000) (q : Fin 256), j = ix2 p q := ⟨j 0, j 1, eq_ix2 j⟩
  have ht : t.val < 25 := (gridPoints ▸ t.isLt)
  obtain ⟨r, hr⟩ : ∃ r : Fin 50000, r.val = 2000 * t.val + p.val := ⟨⟨2000 * t.val + p.val, by omega⟩, rfl⟩
  show out0_2 (iblk0 V c 0 t) (iblk0 V c 1 t) (ix2 p q)
    = Spec.rowDot (M := 50000) (K := 128) (N := 256) (V c main_arg0) (V c main_arg2) (((cfg0.win 2).blk t).view.emb (ix2 p q))
  rw [blockProduct_apply, productBlock_emb t p q r hr, rowDot_apply]
  refine Finset.sum_congr rfl fun k _ => ?_
  rw [featureBlock_apply V c t p k r hr, weightBlock_apply V c t k q]

/-- An entry of the product array is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v4).slice (win0_2.rect t)).set ↔ _
  rw [View.set_slice_whole, Rect.mem_set_unit]
  exact Iff.rfl

/-- Every entry of the product array is in some point's block: row r lies in block r / 2000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by rw [gridPoints]; omega⟩, rfl⟩
  obtain ⟨-, -, -, -, e0, e1⟩ := blockIndex t
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    rw [e0, ht]; omega
  | ⟨1, _⟩ =>
    show win0_2.index t (1 : Fin 2) * 256 ≤ (i 1).val ∧ (i 1).val < win0_2.index t (1 : Fin 2) * 256 + 256
    rw [e1]; omega

/-- After the first region the product array holds, at every entry, the matrix product of the two arrays the region was entered with. -/
theorem final (c : Dev nD) :
    (dat0 (F := Ideal) V c).arrAt 2 cfg0.N = Spec.rowDot (M := 50000) (K := 128) (N := 256) (V c main_arg0) (V c main_arg2) :=
  (dat0 (F := Ideal) V c).arrAt_eq_of_cover 2 _ (fun t _ => flushed_eq V c t) covered

end Cert.KernelIdeal.Region0

end
-- ==== Proof.Region1.lean ====
import proofs.«150774_j9929964388496_1_alg».proof.Proof.Gen.KernelIdeal.Frame
import proofs.«150774_j9929964388496_1_alg».proof.Proof.Spec
import proofs.«150774_j9929964388496_1_alg».proof.Proof.LibPlainDot
import Idealize.ShloMosaic.Lib.Pipeline.Value
import Idealize.ShloMosaic.Lib.ValueIdx
import Idealize.ShloMosaic.PureOps.Ideal.Laws

/-!
  The second matrix product of the network, from its blocks to the whole array.

  The 50000 rows of the hidden-layer array are cut into 25 blocks of 2000 rows. At grid point t the body multiplies
  rows 2000·t … 2000·t + 1999 of the hidden layer (all 256 columns) by the whole 256 × 4 weight matrix and writes the
  2000 × 4 result to the same rows of the product array. The body first recasts the hidden block to its own shape,
  which changes nothing, and over the extended reals the rounding of the operands to the narrower format is the
  identity, so entry (p, q) of a block is the sum over k of hidden(2000·t + p, k) · weight(k, q): block t of the
  plain matrix product. The 25 row blocks tile the product array (row r lies in block r / 2000), so after the last
  point the array holds the matrix product at every entry.
-/

set_option maxRecDepth 16384

open scoped BigOperators

noncomputable section

namespace Cert.KernelIdeal.Region1

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- A whole-block access starts at offset zero on both axes. -/
theorem zeroOffsets : (![0, 0] : Fin 2 → Nat) = fun _ => 0 := funext fun a => by fin_cases a <;> rfl

/-- The grid has 25 points. -/
theorem gridPoints : cfg1.N = 25 := by decide +kernel

/-- What the body leaves in the product block at entry (p, q): row p of the hidden-layer block against column q of
    the weight block. -/
theorem blockProduct_apply (x0 : Vec Ideal S2000x256 .f32) (x1 : Vec Ideal S256x4 .f32) (p : Fin 2000) (q : Fin 4) :
    out1_2 x0 x1 (ix2 p q) = ∑ k : Fin 256, x0 (ix2 p k) * x1 (ix2 k q) := by
  unfold out1_2
  rw [View.canon_unit_zero zeroOffsets]
  simp only [View.ld_unit_zero (S := S2000x256) zeroOffsets, View.ld_unit_zero (S := S256x4) zeroOffsets]
  unfold k1_pay1
  simp only [shapeCast_self]
  exact (Cert.Lib.PlainDot.matmul_zero_apply dot_S2000x256_S256x4_S2000x4_1_0_0_1_n_n rfl rfl rfl rfl rfl rfl none
    _ _ p q).trans (Finset.sum_congr rfl fun k _ => rfl)

/-- The index maps over the grid: at point t the hidden-layer window and the product window sit at row block t and
    column block 0, and the weight window at block (0, 0). -/
theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The hidden-layer window's block at point t holds rows 2000·t … 2000·t + 1999 of the hidden-layer array. -/
theorem hiddenBlock_apply (c : Dev nD) (t : Fin cfg1.N) (p : Fin 2000) (k : Fin 256) (r : Fin 50000)
    (hr : r.val = 2000 * t.val + p.val) :
    (iblk1 V c 0 t : Vec Ideal S2000x256 .f32) (ix2 p k) = (V c main_v53 : S50000x256.Idx → EReal) (ix2 r k) := by
  obtain ⟨e0, e1, -⟩ := blockIndex t
  unfold iblk1
  show V c main_v53 (((cfg1.win 0).blk t).view.emb (ix2 p k)) = V c main_v53 (ix2 r k)
  congr 1
  funext a
  apply Fin.ext
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- The weight window's block at every point is the whole weight matrix. -/
theorem weightBlock_apply (c : Dev nD) (t : Fin cfg1.N) (k : Fin 256) (q : Fin 4) :
    (iblk1 V c 1 t : Vec Ideal S256x4 .f32) (ix2 k q) = (V c main_arg4 : S256x4.Idx → EReal) (ix2 k q) := by
  obtain ⟨-, -, e0, e1, -⟩ := blockIndex t
  unfold iblk1
  show V c main_arg4 (((cfg1.win 1).blk t).view.emb (ix2 k q)) = V c main_arg4 (ix2 k q)
  congr 1
  funext a
  apply Fin.ext
  match a with
  | ⟨0, _⟩ => show win1_1.index t (0 : Fin 2) * 256 + 1 * k.val = k.val; rw [e0]; omega
  | ⟨1, _⟩ => show win1_1.index t (1 : Fin 2) * 4 + 1 * q.val = q.val; rw [e1]; omega

/-- Entry (p, q) of the product window's block at point t is entry (2000·t + p, q) of the product array. -/
theorem productBlock_emb (t : Fin cfg1.N) (p : Fin 2000) (q : Fin 4) (r : Fin 50000)
    (hr : r.val = 2000 * t.val + p.val) :
    (((cfg1.win 2).blk t).view.emb (ix2 p q) : S50000x4.Idx) = ix2 r q := by
  obtain ⟨-, -, -, -, e0, e1⟩ := blockIndex t
  funext a
  apply Fin.ext
  match a with
  | ⟨0, _⟩ => show win1_2.index t (0 : Fin 2) * 2000 + 1 * p.val = r.val; rw [e0, hr]; omega
  | ⟨1, _⟩ => show win1_2.index t (1 : Fin 2) * 4 + 1 * q.val = q.val; rw [e1]; omega

/-- Entry (r, q) of the matrix product is the sum over k of x(r, k) · w(k, q). -/
theorem rowDot_apply (x : S50000x256.Idx → EReal) (w : S256x4.Idx → EReal) (r : Fin 50000) (q : Fin 4) :
    Spec.rowDot (M := 50000) (K := 256) (N := 4) x w (ix2 r q) = ∑ k : Fin 256, x (ix2 r k) * w (ix2 k q) := rfl

/-- What point t writes back is block t of the matrix product of the two arrays the region was entered with. -/
theorem flushed_eq (c : Dev nD) (t : Fin cfg1.N) :
    (dat1 (F := Ideal) V c).flushed 2 t
      = ((cfg1.win 2).blk t).view.read (Elt Ideal)
          (Spec.rowDot (M := 50000) (K := 256) (N := 4) (V c main_v53) (V c main_arg4)) := by
  show (cfg1.win 2).cut (grid1.coords t) ((dat1 V c).after 2 t) = _
  rw [after1_2]
  funext j
  obtain ⟨p, q, rfl⟩ : ∃ (p : Fin 2000) (q : Fin 4), j = ix2 p q := ⟨j 0, j 1, eq_ix2 j⟩
  have ht : t.val < 25 := (gridPoints ▸ t.isLt)
  obtain ⟨r, hr⟩ : ∃ r : Fin 50000, r.val = 2000 * t.val + p.val := ⟨⟨2000 * t.val + p.val, by omega⟩, rfl⟩
  show out1_2 (iblk1 V c 0 t) (iblk1 V c 1 t) (ix2 p q)
    = Spec.rowDot (M := 50000) (K := 256) (N := 4) (V c main_v53) (V c main_arg4) (((cfg1.win 2).blk t).view.emb (ix2 p q))
  rw [blockProduct_apply, productBlock_emb t p q r hr, rowDot_apply]
  refine Finset.sum_congr rfl fun k _ => ?_
  rw [hiddenBlock_apply V c t p k r hr, weightBlock_apply V c t k q]

/-- An entry of the product array is in point t's block iff each coordinate is in the block's range on its axis. -/
theorem mem_block (t : Fin cfg1.N) (i : S50000x4.Idx) :
    i ∈ ((cfg1.win 2).blk t).view.set ↔ ∀ a : Fin 2, win1_2.index t a * S2000x4.size a ≤ (i a).val
      ∧ (i a).val < win1_2.index t a * S2000x4.size a + S2000x4.size a := by
  show i ∈ ((View.whole main_v54).slice (win1_2.rect t)).set ↔ _
  rw [View.set_slice_whole, Rect.mem_set_unit]
  exact Iff.rfl

/-- Every entry of the product array is in some point's block: row r lies in block r / 2000. -/
theorem covered (i : S50000x4.Idx) :
    ∃ t : Fin cfg1.N, (cfg1.win 2).flush t = true ∧ i ∈ ((cfg1.win 2).blk t).view.set := by
  have hi0 : (i 0).val < 50000 := (i 0).isLt
  have hi1 : (i 1).val < 4 := (i 1).isLt
  obtain ⟨t, ht⟩ : ∃ t : Fin cfg1.N, t.val = (i 0).val / 2000 :=
    ⟨⟨(i 0).val / 2000, by rw [gridPoints]; omega⟩, rfl⟩
  obtain ⟨-, -, -, -, e0, e1⟩ := blockIndex t
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    rw [e0, ht]; omega
  | ⟨1, _⟩ =>
    show win1_2.index t (1 : Fin 2) * 4 ≤ (i 1).val ∧ (i 1).val < win1_2.index t (1 : Fin 2) * 4 + 4
    rw [e1]; omega

/-- After the second region the product array holds, at every entry, the matrix product of the two arrays the region was entered with. -/
theorem final (c : Dev nD) :
    (dat1 (F := Ideal) V c).arrAt 2 cfg1.N = Spec.rowDot (M := 50000) (K := 256) (N := 4) (V c main_v53) (V c main_arg4) :=
  (dat1 (F := Ideal) V c).arrAt_eq_of_cover 2 _ (fun t _ => flushed_eq V c t) covered

end Cert.KernelIdeal.Region1

end
-- ==== Proof.KernelValue.lean ====
import proofs.«150774_j9929964388496_1_alg».proof.Proof.Gen.KernelIdeal.Frame
import proofs.«150774_j9929964388496_1_alg».proof.Proof.Spec
import proofs.«150774_j9929964388496_1_alg».proof.Proof.HostStretches
import proofs.«150774_j9929964388496_1_alg».proof.Proof.Region0
import proofs.«150774_j9929964388496_1_alg».proof.Proof.Region1

/-!
  The kernel program's result is the specification's network of its arguments.

  The fold through @main is followed boundary by boundary. After the cut of the edge list the two rows hold the source and
  destination nodes; the first region leaves the product of the features and the first weights in its output array and
  touches nothing else that is read later; the middle stretch makes the hidden layer of it; the second region leaves the
  product of the hidden layer and the second weights; the last stretch makes the output layer of it. No stretch and no
  region writes an argument, nor an edge row once it is cut, so each is read back to the launch contents.
-/

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## After the cut of the edge list -/

theorem b1_src : W1 m ρ c (Proc.devRef .tc main_v1) = (Spec.srcRow (m ((c : Thread nD τ).loc main_arg1))) := HostValue.cut_src (W0 m ρ c)
theorem b1_dst : W1 m ρ c (Proc.devRef .tc main_v3) = (Spec.dstRow (m ((c : Thread nD τ).loc main_arg1))) := HostValue.cut_dst (W0 m ρ c)
theorem b1_a0 : W1 m ρ c (Proc.devRef .tc main_arg0) = (m ((c : Thread nD τ).loc main_arg0)) := (HostValue.cut_keeps (W0 m ρ c)).1
theorem b1_a2 : W1 m ρ c (Proc.devRef .tc main_arg2) = (m ((c : Thread nD τ).loc main_arg2)) := (HostValue.cut_keeps (W0 m ρ c)).2.1
theorem b1_a3 : W1 m ρ c (Proc.devRef .tc main_arg3) = (m ((c : Thread nD τ).loc main_arg3)) := (HostValue.cut_keeps (W0 m ρ c)).2.2.1
theorem b1_a4 : W1 m ρ c (Proc.devRef .tc main_arg4) = (m ((c : Thread nD τ).loc main_arg4)) := (HostValue.cut_keeps (W0 m ρ c)).2.2.2.1
theorem b1_a5 : W1 m ρ c (Proc.devRef .tc main_arg5) = (m ((c : Thread nD τ).loc main_arg5)) := (HostValue.cut_keeps (W0 m ρ c)).2.2.2.2

/-! ## After the first product -/

theorem b2_h : W2 m ρ c (Proc.devRef .tc main_v4) = (Spec.rowDot (M := 50000) (K := 128) (N := 256) (m ((c : Thread nD τ).loc main_arg0)) (m ((c : Thread nD τ).loc main_arg2))) := by
  refine (W2_arr m ρ c 2).trans ((Region0.final (V1 m ρ) c).trans ?_)
  show Spec.rowDot (M := 50000) (K := 128) (N := 256) (W1 m ρ c (Proc.devRef .tc main_arg0)) (W1 m ρ c (Proc.devRef .tc main_arg2)) = _
  rw [b1_a0, b1_a2]
theorem b2_src : W2 m ρ c (Proc.devRef .tc main_v1) = (Spec.srcRow (m ((c : Thread nD τ).loc main_arg1))) := (W2_of_ne m ρ c main_v1 (by decide)).trans (b1_src m ρ c)
theorem b2_dst : W2 m ρ c (Proc.devRef .tc main_v3) = (Spec.dstRow (m ((c : Thread nD τ).loc main_arg1))) := (W2_of_ne m ρ c main_v3 (by decide)).trans (b1_dst m ρ c)
theorem b2_a3 : W2 m ρ c (Proc.devRef .tc main_arg3) = (m ((c : Thread nD τ).loc main_arg3)) := (W2_of_ne m ρ c main_arg3 (by decide)).trans (b1_a3 m ρ c)
theorem b2_a4 : W2 m ρ c (Proc.devRef .tc main_arg4) = (m ((c : Thread nD τ).loc main_arg4)) := (W2_of_ne m ρ c main_arg4 (by decide)).trans (b1_a4 m ρ c)
theorem b2_a5 : W2 m ρ c (Proc.devRef .tc main_arg5) = (m ((c : Thread nD τ).loc main_arg5)) := (W2_of_ne m ρ c main_arg5 (by decide)).trans (b1_a5 m ρ c)

/-! ## After the middle stretch -/

theorem b4_h : W4 m ρ c (Proc.devRef .tc main_v53) = (Spec.hidden (F := Ideal) (Spec.rowDot (M := 50000) (K := 128) (N := 256) (m ((c : Thread nD τ).loc main_arg0)) (m ((c : Thread nD τ).loc main_arg2))) (Spec.srcRow (m ((c : Thread nD τ).loc main_arg1))) (Spec.dstRow (m ((c : Thread nD τ).loc main_arg1))) (m ((c : Thread nD τ).loc main_arg3))) := by
  refine (HostValue.hidden_of (W2 m ρ c)).trans ?_
  rw [b2_h, b2_src, b2_dst, b2_a3]
theorem b4_src : W4 m ρ c (Proc.devRef .tc main_v1) = (Spec.srcRow (m ((c : Thread nD τ).loc main_arg1))) := (HostValue.hidden_keeps (W2 m ρ c)).1.trans (b2_src m ρ c)
theorem b4_dst : W4 m ρ c (Proc.devRef .tc main_v3) = (Spec.dstRow (m ((c : Thread nD τ).loc main_arg1))) := (HostValue.hidden_keeps (W2 m ρ c)).2.1.trans (b2_dst m ρ c)
theorem b4_a4 : W4 m ρ c (Proc.devRef .tc main_arg4) = (m ((c : Thread nD τ).loc main_arg4)) := (HostValue.hidden_keeps (W2 m ρ c)).2.2.1.trans (b2_a4 m ρ c)
theorem b4_a5 : W4 m ρ c (Proc.devRef .tc main_arg5) = (m ((c : Thread nD τ).loc main_arg5)) := (HostValue.hidden_keeps (W2 m ρ c)).2.2.2.trans (b2_a5 m ρ c)

/-! ## After the second product -/

theorem b5_h : W5 m ρ c (Proc.devRef .tc main_v54) = (Spec.rowDot (M := 50000) (K := 256) (N := 4) (Spec.hidden (F := Ideal) (Spec.rowDot (M := 50000) (K := 128) (N := 256) (m ((c : Thread nD τ).loc main_arg0)) (m ((c : Thread nD τ).loc main_arg2))) (Spec.srcRow (m ((c : Thread nD τ).loc main_arg1))) (Spec.dstRow (m ((c : Thread nD τ).loc main_arg1))) (m ((c : Thread nD τ).loc main_arg3))) (m ((c : Thread nD τ).loc main_arg4))) := by
  refine (W5_arr m ρ c 2).trans ((Region1.final (V4 m ρ) c).trans ?_)
  show Spec.rowDot (M := 50000) (K := 256) (N := 4) (W4 m ρ c (Proc.devRef .tc main_v53)) (W4 m ρ c (Proc.devRef .tc main_arg4)) = _
  rw [b4_h, b4_a4]
theorem b5_src : W5 m ρ c (Proc.devRef .tc main_v1) = (Spec.srcRow (m ((c : Thread nD τ).loc main_arg1))) := (W5_of_ne m ρ c main_v1 (by decide)).trans (b4_src m ρ c)
theorem b5_dst : W5 m ρ c (Proc.devRef .tc main_v3) = (Spec.dstRow (m ((c : Thread nD τ).loc main_arg1))) := (W5_of_ne m ρ c main_v3 (by decide)).trans (b4_dst m ρ c)
theorem b5_a5 : W5 m ρ c (Proc.devRef .tc main_arg5) = (m ((c : Thread nD τ).loc main_arg5)) := (W5_of_ne m ρ c main_arg5 (by decide)).trans (b4_a5 m ρ c)

/-! ## The result -/

/-- The last boundary's contents of the result buffer are the network of the launch contents of the arguments. -/
theorem result : W6 m ρ c (Proc.devRef .tc main_v102) = Spec.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (HostValue.output_of (W5 m ρ c)).trans ?_
  rw [b5_h, b5_src, b5_dst, b5_a5]
  rfl

end Cert.KernelIdeal.KernelValue

end
-- ==== Proof.RefSide.lean ====
import proofs.«150774_j9929964388496_1_alg».proof.Proof.Gen.ReferenceIdeal.Run
import proofs.«150774_j9929964388496_1_alg».proof.Proof.Gen.KernelIdeal
import proofs.«150774_j9929964388496_1_alg».proof.Proof.Spec
import proofs.«150774_j9929964388496_1_alg».proof.Proof.LibPlainDot

/-!
  The reference's result is the specification's network of its arguments.

  The reference computes each layer's features by the host's matrix product where the kernel program launches a region;
  everything else is the same operations in the same order. Over the extended reals the host's product, read at entry
  (p, q), is the sum over k of x(p, k) · w(k, q), whatever the schedule: the specification's `rowDot`. So the term the
  reference's run ends at is the specification's network, the two products replaced.
-/

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value

/-- The first layer's host product is the plain matrix product of its operands. -/
theorem product1 (x : FVec Ideal S50000x128 .f32) (w : FVec Ideal S128x256 .f32) :
    Host.dotGeneral dot_S50000x128_S128x256_S50000x256_1_0_0_1_n_n none x w
      = Cert.KernelIdeal.Spec.rowDot (M := 50000) (K := 128) (N := 256) x w := by
  funext i
  obtain ⟨p, q, rfl⟩ : ∃ (p : Fin 50000) (q : Fin 256), i = ix2 p q := ⟨i 0, i 1, eq_ix2 i⟩
  exact Cert.Lib.PlainDot.dotGeneral_apply _ rfl rfl rfl rfl rfl rfl none .single x w p q

/-- The second layer's host product is the plain matrix product of its operands. -/
theorem product2 (x : FVec Ideal S50000x256 .f32) (w : FVec Ideal S256x4 .f32) :
    Host.dotGeneral dot_S50000x256_S256x4_S50000x4_1_0_0_1_n_n none x w
      = Cert.KernelIdeal.Spec.rowDot (M := 50000) (K := 256) (N := 4) x w := by
  funext i
  obtain ⟨p, q, rfl⟩ : ∃ (p : Fin 50000) (q : Fin 4), i = ix2 p q := ⟨i 0, i 1, eq_ix2 i⟩
  exact Cert.Lib.PlainDot.dotGeneral_apply _ rfl rfl rfl rfl rfl rfl none .single x w p q

set_option maxHeartbeats 16000000 in
/-- The run's term, layer by layer: the same host operations as the specification's layers, around the host's two
    products. -/
theorem result_layers (m : (ℓ : Loc nD τ sig) → Buf (Elt Ideal) ℓ) (c : Dev nD) :
    res_main_v102 (F := Ideal) m c
      = Cert.KernelIdeal.Spec.aggregate4 (F := Ideal)
          (Host.dotGeneral (φ₁ := .f32) (φ₂ := .f32) dot_S50000x256_S256x4_S50000x4_1_0_0_1_n_n none
            (Cert.KernelIdeal.Spec.hidden (F := Ideal)
              (Host.dotGeneral (φ₁ := .f32) (φ₂ := .f32) dot_S50000x128_S128x256_S50000x256_1_0_0_1_n_n none
                (m ((c.tc : Thread nD τ).loc main_arg0)) (m ((c.tc : Thread nD τ).loc main_arg2)))
              (Cert.KernelIdeal.Spec.srcRow (m ((c.tc : Thread nD τ).loc main_arg1)))
              (Cert.KernelIdeal.Spec.dstRow (m ((c.tc : Thread nD τ).loc main_arg1)))
              (m ((c.tc : Thread nD τ).loc main_arg3)))
            (m ((c.tc : Thread nD τ).loc main_arg4)))
          (Cert.KernelIdeal.Spec.srcRow (m ((c.tc : Thread nD τ).loc main_arg1)))
          (Cert.KernelIdeal.Spec.dstRow (m ((c.tc : Thread nD τ).loc main_arg1)))
          (m ((c.tc : Thread nD τ).loc main_arg5)) := by
  unfold res_main_v102
  rfl

/-- The reference's result is the network of its arguments. -/
theorem result_eq (m : (ℓ : Loc nD τ sig) → Buf (Elt Ideal) ℓ) (c : Dev nD) :
    res_main_v102 (F := Ideal) m c
      = Cert.KernelIdeal.Spec.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [result_layers, product1, product2]
  rfl

end Cert.ReferenceIdeal.RefValue

end
-- ==== Proof.lean ====
/-
  The certificate of a two-layer graph convolution: the kernel program computes each layer's node features by a
  row-blocked matrix product on the TensorCore (25 blocks of 2000 rows, the weights whole) and the rest — degree
  normalisation, gather of the source rows, sum into the destination rows, self term, bias, and max with zero after the
  first layer — by host operations; the reference computes the features by the host's matrix product and the rest by the
  same host operations.

  Over the extended reals a change of float format is the identity, and both matrix products, read at entry (p, q), are
  the sum over k of x(p, k) · w(k, q): the kernel's block by block (every row lies in exactly one block, and the block
  of rows 2000·t … 2000·t + 1999 reads the same rows of the features), the host's whole. The two sums are the same sum
  term by term, so no law that fails at the infinities is used and the finiteness of the inputs is never opened. Both
  programs then end at one function of the arguments, the specification's `network`.

  The three frames are the generated ones (the reference's its generated run with the result dropped); the
  idealization rewrote nothing, so `preserves` has nothing to state.
-/
import proofs.«150774_j9929964388496_1_alg».proof.Defs
import proofs.«150774_j9929964388496_1_alg».proof.Proof.Gen.Kernel
import proofs.«150774_j9929964388496_1_alg».proof.Proof.Gen.Kernel.Frame
import proofs.«150774_j9929964388496_1_alg».proof.Proof.Gen.KernelIdeal
import proofs.«150774_j9929964388496_1_alg».proof.Proof.Gen.KernelIdeal.Frame
import proofs.«150774_j9929964388496_1_alg».proof.Proof.Gen.ReferenceIdeal
import proofs.«150774_j9929964388496_1_alg».proof.Proof.Gen.ReferenceIdeal.Run
import proofs.«150774_j9929964388496_1_alg».proof.Proof.Gen.Pre_finite_inputs
import proofs.«150774_j9929964388496_1_alg».proof.Proof.KernelRun
import proofs.«150774_j9929964388496_1_alg».proof.Proof.KernelValue
import proofs.«150774_j9929964388496_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end, with the result at the network of the arguments: the kernel program's by the fold through its
    regions and stretches, the reference's by its run's term; the arguments agree, so the two results are equal. -/
theorem algebraic : Cert.algebraic_KernelIdeal_ReferenceIdeal := by
  intro m ρ m' ρ' _ hagree
  refine ⟨fun c => Cert.KernelIdeal.Spec.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result m ρ c), (h c).2⟩)
      (Cert.KernelIdeal.RunResult.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
